-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S128x256 : Shape := ⟨2, ![128, 256]⟩
abbrev S128 : Shape := ⟨1, ![128]⟩
abbrev S2x625000 : Shape := ⟨2, ![2, 625000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x256 .f32) (main_arg1 : FVec F S128x256 .f32) (main_arg2 : FVec F S128 .f32) (main_arg3 : IVec S2x625000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x256 : Shape := ⟨2, ![50000, 256]⟩
abbrev S128x256 : Shape := ⟨2, ![128, 256]⟩
abbrev S128 : Shape := ⟨1, ![128]⟩
abbrev S2x625000 : Shape := ⟨2, ![2, 625000]⟩
abbrev S50000x128 : Shape := ⟨2, ![50000, 128]⟩
abbrev S5000x256 : Shape := ⟨2, ![5000, 256]⟩
abbrev S5000x128 : Shape := ⟨2, ![5000, 128]⟩
abbrev S256x128 : Shape := ⟨2, ![256, 128]⟩
abbrev S1x128 : Shape := ⟨2, ![1, 128]⟩
abbrev S1x625000 : Shape := ⟨2, ![1, 625000]⟩
abbrev S625000 : Shape := ⟨1, ![625000]⟩
abbrev S_ : Shape := ⟨0, ![]⟩
abbrev S50000 : Shape := ⟨1, ![50000]⟩
abbrev S625000x1 : Shape := ⟨2, ![625000, 1]⟩
abbrev S625000x128 : Shape := ⟨2, ![625000, 128]⟩
abbrev S5000x1 : Shape := ⟨2, ![5000, 1]⟩
abbrev S50000x1 : Shape := ⟨2, ![50000, 1]⟩

abbrev nBuf : Space → Nat
  | .hbm => 51
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S128x256, .f32⟩
  | .hbm, ⟨2, _⟩ => ⟨S128, .f32⟩
  | .hbm, ⟨3, _⟩ => ⟨S2x625000, .i32⟩
  | .hbm, ⟨4, _⟩ => ⟨S50000x128, .f32⟩
  | .hbm, ⟨5, _⟩ => ⟨S1x625000, .i32⟩
  | .hbm, ⟨6, _⟩ => ⟨S625000, .i32⟩
  | .hbm, ⟨7, _⟩ => ⟨S1x625000, .i32⟩
  | .hbm, ⟨8, _⟩ => ⟨S625000, .i32⟩
  | .hbm, ⟨9, _⟩ => ⟨S_, .f32⟩
  | .hbm, ⟨10, _⟩ => ⟨S625000, .f32⟩
  | .hbm, ⟨11, _⟩ => ⟨S_, .f32⟩
  | .hbm, ⟨12, _⟩ => ⟨S50000, .f32⟩
  | .hbm, ⟨13, _⟩ => ⟨S625000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S625000, .i32⟩
  | .hbm, ⟨27, _⟩ => ⟨S625000, .i1⟩
  | .hbm, ⟨28, _⟩ => ⟨S_, .i32⟩
  | .hbm, ⟨29, _⟩ => ⟨S625000, .i32⟩
  | .hbm, ⟨30, _⟩ => ⟨S625000, .i32⟩
  | .hbm, ⟨31, _⟩ => ⟨S625000, .i32⟩
  | .hbm, ⟨32, _⟩ => ⟨S625000x1, .i32⟩
  | .hbm, ⟨33, _⟩ => ⟨S625000x128, .f32⟩
  | .hbm, ⟨34, _⟩ => ⟨S_, .i32⟩
  | .hbm, ⟨35, _⟩ => ⟨S625000, .i32⟩
  | .hbm, ⟨36, _⟩ => ⟨S625000, .i1⟩
  | .hbm, ⟨37, _⟩ => ⟨S_, .i32⟩
  | .hbm, ⟨38, _⟩ => ⟨S625000, .i32⟩
  | .hbm, ⟨39, _⟩ => ⟨S625000, .i32⟩
  | .hbm, ⟨40, _⟩ => ⟨S625000, .i32⟩
  | .hbm, ⟨41, _⟩ => ⟨S625000x1, .i32⟩
  | .hbm, ⟨42, _⟩ => ⟨S625000, .f32⟩
  | .hbm, ⟨43, _⟩ => ⟨S625000x1, .f32⟩
  | .hbm, ⟨44, _⟩ => ⟨S625000x128, .f32⟩
  | .hbm, ⟨45, _⟩ => ⟨S_, .f32⟩
  | .hbm, ⟨46, _⟩ => ⟨S50000x128, .f32⟩
  | .hbm, ⟨47, _⟩ => ⟨S625000x1, .i32⟩
  | .hbm, ⟨48, _⟩ => ⟨S50000x128, .f32⟩
  | .hbm, ⟨49, _⟩ => ⟨S50000x1, .f32⟩
  | .hbm, ⟨50, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S128x256, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S5000x128, .f32⟩
  | .local _ .vmem, ⟨17, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S50000 : S_.BroadcastsInDim S50000 (![] : Fin 0 → Fin S50000.rank)
  bcast_S625000_S625000x1_0 : S625000.BroadcastsInDim S625000x1 (![0] : Fin 1 → Fin S625000x1.rank)
  shapeCasts_S625000_S625000x1 : S625000.ShapeCasts S625000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S50000_S50000x1 : S50000.ShapeCasts S50000x1
  dot_S5000x256_S256x128_S5000x128_1_0_0_1_n_n_wf : DotDims.WF S5000x256 S256x128 S5000x128 [1] [0] [0] [1] [] []
  scatter_S50000_S625000x1_S625000_n_0_0_1_wf : ScatterDims.WF S50000 S625000x1 S625000 [] [0] [0] 1
  gather_S50000x128_S625000x1_S625000x128_1_0_n_n_0_1_1128_wf : GatherDims.WF S50000x128 S625000x1 S625000x128 [1] [0] [] [0] [] 1 ![1, 128]
  gather_S50000_S625000x1_S625000_n_0_n_n_0_1_1_wf : GatherDims.WF S50000 S625000x1 S625000 [] [0] [] [0] [] 1 ![1]
  scatter_S50000x128_S625000x1_S625000x128_1_0_0_1_wf : ScatterDims.WF S50000x128 S625000x1 S625000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S625000x128.size a
  hwx1_0 : ∀ i : grid1.Coords, EltTy.bits .f32 = 32 ∨ (Rect.block (s := S625000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S625000x1.size a
  hwx1_1 : ∀ i : grid1.Coords, EltTy.bits .f32 = 32 ∨ (Rect.block (s := S625000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S625000x128.size a
  hwx1_2 : ∀ i : grid1.Coords, EltTy.bits .f32 = 32 ∨ (Rect.block (s := S625000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def gather_S50000_S625000x1_S625000_n_0_n_n_0_1_1 : GatherDims S50000 S625000x1 S625000 where
  offsetDims := []
  collapsedSliceDims := [0]
  operandBatchingDims := []
  startIndicesBatchingDims := []
  startIndexMap := [0]
  indexVectorDim := 1
  sliceSizes := ![1]
  wf := gather_S50000_S625000x1_S625000_n_0_n_n_0_1_1_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S128x256 : Shape := ⟨2, ![128, 256]⟩
abbrev S128 : Shape := ⟨1, ![128]⟩
abbrev S2x625000 : Shape := ⟨2, ![2, 625000]⟩
abbrev S256x128 : Shape := ⟨2, ![256, 128]⟩
abbrev S50000x128 : Shape := ⟨2, ![50000, 128]⟩
abbrev S1x128 : Shape := ⟨2, ![1, 128]⟩
abbrev S1x625000 : Shape := ⟨2, ![1, 625000]⟩
abbrev S625000 : Shape := ⟨1, ![625000]⟩
abbrev S_ : Shape := ⟨0, ![]⟩
abbrev S50000 : Shape := ⟨1, ![50000]⟩
abbrev S625000x1 : Shape := ⟨2, ![625000, 1]⟩
abbrev S625000x128 : Shape := ⟨2, ![625000, 128]⟩
abbrev S50000x1 : Shape := ⟨2, ![50000, 1]⟩

abbrev nBuf : Space → Nat
  | .hbm => 57
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S128x256, .f32⟩
  | .hbm, ⟨2, _⟩ => ⟨S128, .f32⟩
  | .hbm, ⟨3, _⟩ => ⟨S2x625000, .i32⟩
  | .hbm, ⟨4, _⟩ => ⟨S256x128, .f32⟩
  | .hbm, ⟨5, _⟩ => ⟨S50000x128, .f32⟩
  | .hbm, ⟨6, _⟩ => ⟨S1x128, .f32⟩
  | .hbm, ⟨7, _⟩ => ⟨S50000x128, .f32⟩
  | .hbm, ⟨8, _⟩ => ⟨S50000x128, .f32⟩
  | .hbm, ⟨9, _⟩ => ⟨S1x625000, .i32⟩
  | .hbm, ⟨10, _⟩ => ⟨S625000, .i32⟩
  | .hbm, ⟨11, _⟩ => ⟨S1x625000, .i32⟩
  | .hbm, ⟨12, _⟩ => ⟨S625000, .i32⟩
  | .hbm, ⟨13, _⟩ => ⟨S_, .f32⟩
  | .hbm, ⟨14, _⟩ => ⟨S625000, .f32⟩
  | .hbm, ⟨15, _⟩ => ⟨S_, .f32⟩
  | .hbm, ⟨16, _⟩ => ⟨S50000, .f32⟩
  | .hbm, ⟨17, _⟩ => ⟨S625000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S625000, .i32⟩
  | .hbm, ⟨31, _⟩ => ⟨S625000, .i1⟩
  | .hbm, ⟨32, _⟩ => ⟨S_, .i32⟩
  | .hbm, ⟨33, _⟩ => ⟨S625000, .i32⟩
  | .hbm, ⟨34, _⟩ => ⟨S625000, .i32⟩
  | .hbm, ⟨35, _⟩ => ⟨S625000, .i32⟩
  | .hbm, ⟨36, _⟩ => ⟨S625000x1, .i32⟩
  | .hbm, ⟨37, _⟩ => ⟨S625000x128, .f32⟩
  | .hbm, ⟨38, _⟩ => ⟨S_, .i32⟩
  | .hbm, ⟨39, _⟩ => ⟨S625000, .i32⟩
  | .hbm, ⟨40, _⟩ => ⟨S625000, .i1⟩
  | .hbm, ⟨41, _⟩ => ⟨S_, .i32⟩
  | .hbm, ⟨42, _⟩ => ⟨S625000, .i32⟩
  | .hbm, ⟨43, _⟩ => ⟨S625000, .i32⟩
  | .hbm, ⟨44, _⟩ => ⟨S625000, .i32⟩
  | .hbm, ⟨45, _⟩ => ⟨S625000x1, .i32⟩
  | .hbm, ⟨46, _⟩ => ⟨S625000, .f32⟩
  | .hbm, ⟨47, _⟩ => ⟨S625000x1, .f32⟩
  | .hbm, ⟨48, _⟩ => ⟨S625000x128, .f32⟩
  | .hbm, ⟨49, _⟩ => ⟨S625000x128, .f32⟩
  | .hbm, ⟨50, _⟩ => ⟨S_, .f32⟩
  | .hbm, ⟨51, _⟩ => ⟨S50000x128, .f32⟩
  | .hbm, ⟨52, _⟩ => ⟨S625000x1, .i32⟩
  | .hbm, ⟨53, _⟩ => ⟨S50000x128, .f32⟩
  | .hbm, ⟨54, _⟩ => ⟨S50000x1, .f32⟩
  | .hbm, ⟨55, _⟩ => ⟨S50000x128, .f32⟩
  | .hbm, ⟨56, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S50000 : S_.BroadcastsInDim S50000 (![] : Fin 0 → Fin S50000.rank)
  bcast_S625000_S625000x1_0 : S625000.BroadcastsInDim S625000x1 (![0] : Fin 1 → Fin S625000x1.rank)
  bcast_S625000x1_S625000x128_0_1 : S625000x1.BroadcastsInDim S625000x128 (![0, 1] : Fin 2 → Fin S625000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x256_S256x128_S50000x128_1_0_0_1_n_n_wf : DotDims.WF S50000x256 S256x128 S50000x128 [1] [0] [0] [1] [] []
  scatter_S50000_S625000x1_S625000_n_0_0_1_wf : ScatterDims.WF S50000 S625000x1 S625000 [] [0] [0] 1
  gather_S50000x128_S625000x1_S625000x128_1_0_n_n_0_1_1128_wf : GatherDims.WF S50000x128 S625000x1 S625000x128 [1] [0] [] [0] [] 1 ![1, 128]
  gather_S50000_S625000x1_S625000_n_0_n_n_0_1_1_wf : GatherDims.WF S50000 S625000x1 S625000 [] [0] [] [0] [] 1 ![1]
  scatter_S50000x128_S625000x1_S625000x128_1_0_0_1_wf : ScatterDims.WF S50000x128 S625000x1 S625000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def gather_S50000_S625000x1_S625000_n_0_n_n_0_1_1 : GatherDims S50000 S625000x1 S625000 where
  offsetDims := []
  collapsedSliceDims := [0]
  operandBatchingDims := []
  startIndicesBatchingDims := []
  startIndexMap := [0]
  indexVectorDim := 1
  sliceSizes := ![1]
  wf := gather_S50000_S625000x1_S625000_n_0_n_n_0_1_1_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf

class Facts : Prop extends Facts₀ where

variable [Facts]
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.LibBroadcastRead.lean ====
/-
  The host's two-step broadcasts of a vector into a rectangle, read at one entry.

  `jnp` lays a vector along a rectangle in two steps: first it gives the vector a unit axis (a row `[1, m]` or a column
  `[n, 1]`), then it repeats that along the unit axis. Read at entry `(p, q)`, a row repeated down the rows holds the
  row's entry `q`, and a column repeated along the columns holds the column's entry `p`; the unit-axis step changes
  nothing but the index's shape. Stated for every size, so a program's printed broadcast is an instance.
-/
import Idealize.ShloMosaic.Lib.ValueIdx
import Idealize.ShloMosaic.Lib.Pipeline.Value

namespace Cert.LibBroadcastRead

open Idealize.ShloMosaic Idealize.ShloMosaic.ValueIdx Idealize.ShloMosaic.Pipeline

variable {α : Type} {n m : ℕ}

/-- A vector as a one-row matrix: entry `(0, q)` is the vector's entry `q`. -/
theorem vec_as_row_apply (h : (⟨1, ![m]⟩ : Shape).BroadcastsInDim ⟨2, ![1, m]⟩ ![1]) (v : (⟨1, ![m]⟩ : Shape).Idx → α)
    (u : Fin 1) (q : Fin m) : broadcastInDim ⟨2, ![1, m]⟩ ![1] h v (ix2 u q) = v (ix1 q) :=
  broadcastInDim_apply _ h v _ _ fun a => by
    match a with
    | ⟨0, _⟩ =>
      show q.val = if m = 1 then 0 else q.val
      have := q.isLt; split <;> omega

/-- A vector as a one-column matrix: entry `(p, 0)` is the vector's entry `p`. -/
theorem vec_as_col_apply (h : (⟨1, ![n]⟩ : Shape).BroadcastsInDim ⟨2, ![n, 1]⟩ ![0]) (v : (⟨1, ![n]⟩ : Shape).Idx → α)
    (p : Fin n) (u : Fin 1) : broadcastInDim ⟨2, ![n, 1]⟩ ![0] h v (ix2 p u) = v (ix1 p) :=
  broadcastInDim_apply _ h v _ _ fun a => by
    match a with
    | ⟨0, _⟩ =>
      show p.val = if n = 1 then 0 else p.val
      have := p.isLt; split <;> omega

/-- A one-row matrix repeated down `n` rows: entry `(p, q)` is the row's entry `q`. -/
theorem row_down_apply (h : (⟨2, ![1, m]⟩ : Shape).BroadcastsInDim ⟨2, ![n, m]⟩ ![0, 1]) (v : (⟨2, ![1, m]⟩ : Shape).Idx → α)
    (p : Fin n) (q : Fin m) : broadcastInDim ⟨2, ![n, m]⟩ ![0, 1] h v (ix2 p q) = v (ix2 0 q) :=
  broadcastInDim_apply _ h v _ _ fun a => by
    match a with
    | ⟨0, _⟩ => show (0 : ℕ) = if (1 : ℕ) = 1 then 0 else p.val; rw [if_pos rfl]
    | ⟨1, _⟩ =>
      show q.val = if m = 1 then 0 else q.val
      have := q.isLt; split <;> omega

/-- A one-column matrix repeated along `m` columns: entry `(p, q)` is the column's entry `p`. -/
theorem col_along_apply (h : (⟨2, ![n, 1]⟩ : Shape).BroadcastsInDim ⟨2, ![n, m]⟩ ![0, 1]) (v : (⟨2, ![n, 1]⟩ : Shape).Idx → α)
    (p : Fin n) (q : Fin m) : broadcastInDim ⟨2, ![n, m]⟩ ![0, 1] h v (ix2 p q) = v (ix2 p 0) :=
  broadcastInDim_apply _ h v _ _ fun a => by
    match a with
    | ⟨0, _⟩ =>
      show p.val = if n = 1 then 0 else p.val
      have := p.isLt; split <;> omega
    | ⟨1, _⟩ => show (0 : ℕ) = if (1 : ℕ) = 1 then 0 else q.val; rw [if_pos rfl]

end Cert.LibBroadcastRead
-- ==== Proof.LibLinearRows.lean ====
/-
  A linear layer applied to every row of a matrix, read entry by entry, for every size.

  For `x` of `N` rows and `K` columns, weights `w` of `M` rows and `K` columns and a bias `b` of `M` entries, the
  layer's output has at `(p, j)` the value `(∑ k, x (p, k) · w (j, k)) + b j` on the extended reals (`linearRows`).
  Two spellings of it are met. A matrix unit rounds both operands to a narrower float format (the identity on the
  extended reals), transposes the weights to `K × M`, multiplies into a zero accumulator and adds the bias laid along
  the rows by a recast to `[1, M]` and a vector broadcast. The host transposes the weights, takes the plain product and
  adds the bias laid out by two broadcasts. Both are `linearRows`. Any block of consecutive rows of the output is the
  layer applied to that block of rows of `x` (`linearRows_block`): an output row depends on its own input row only.
-/
import Idealize.ShloMosaic.PureOps.Ideal.Laws
import Idealize.ShloMosaic.Lib.ValueIdx
import Idealize.ShloMosaic.Lib.ValueLayout
import Idealize.ShloMosaic.Lib.Pipeline.Value
import proofs.«168709_j72086731096478_1_alg».proof.Proof.LibPlainProduct
import proofs.«168709_j72086731096478_1_alg».proof.Proof.LibBroadcastRead

noncomputable section

open scoped BigOperators

namespace Cert.LibLinearRows

open Idealize.ShloMosaic Idealize.ShloMosaic.ValueIdx Idealize.ShloMosaic.Pipeline

variable {N K M : ℕ}

/-- The layer's output: entry `(p, j)` is `(∑ k, x (p, k) · w (j, k)) + b j`. -/
def linearRows (x : FVec Ideal ⟨2, ![N, K]⟩ .f32) (w : FVec Ideal ⟨2, ![M, K]⟩ .f32) (b : FVec Ideal ⟨1, ![M]⟩ .f32) :
    FVec Ideal ⟨2, ![N, M]⟩ .f32 :=
  fun i => (∑ k : Fin K, x (ix2 (i 0) k) * w (ix2 (i 1) k)) + b (ix1 (i 1))

theorem linearRows_apply (x : FVec Ideal ⟨2, ![N, K]⟩ .f32) (w : FVec Ideal ⟨2, ![M, K]⟩ .f32) (b : FVec Ideal ⟨1, ![M]⟩ .f32)
    (p : Fin N) (j : Fin M) : linearRows x w b (ix2 p j) = (∑ k : Fin K, x (ix2 p k) * w (ix2 j k)) + b (ix1 j) := rfl

/-- The transposed weights at `(k, j)` are the weights at `(j, k)`. -/
theorem transposed_apply {α : Type} (w : (⟨2, ![M, K]⟩ : Shape).Idx → α) (h : (⟨2, ![M, K]⟩ : Shape).Transposes [1, 0] ⟨2, ![K, M]⟩)
    (k : Fin K) (j : Fin M) : transpose ⟨2, ![K, M]⟩ [1, 0] w h (ix2 k j) = w (ix2 j k) :=
  transpose_apply [1, 0] w h (ix2 k j) (ix2 j k) fun a => by
    match a with
    | ⟨0, _⟩ => rfl
    | ⟨1, _⟩ => rfl

/-- The matrix unit's spelling. -/
theorem matmul_form (x : FVec Ideal ⟨2, ![N, K]⟩ .f32) (w : FVec Ideal ⟨2, ![M, K]⟩ .f32) (b : FVec Ideal ⟨1, ![M]⟩ .f32)
    (hn : FTy.bf16.bits < FTy.f32.bits) (ht : (⟨2, ![M, K]⟩ : Shape).Transposes [1, 0] ⟨2, ![K, M]⟩)
    (hc : (⟨1, ![M]⟩ : Shape).ShapeCasts ⟨2, ![1, M]⟩) (hb : (⟨2, ![1, M]⟩ : Shape).Broadcasts ⟨2, ![N, M]⟩)
    (d : DotDims ⟨2, ![N, K]⟩ ⟨2, ![K, M]⟩ ⟨2, ![N, M]⟩) (hd : d = DotDims.plain N K M) :
    addf (matmul d none (truncf .bf16 x hn) (transpose ⟨2, ![K, M]⟩ [1, 0] (truncf .bf16 w hn) ht)
        (constant ⟨2, ![N, M]⟩ .f32 0x00000000#32))
      (broadcastTo ⟨2, ![N, M]⟩ (shapeCast ⟨2, ![1, M]⟩ b hc) hb) = linearRows x w b := by
  subst hd
  funext i
  obtain ⟨p, j, rfl⟩ : ∃ (p : Fin N) (j : Fin M), i = ix2 p j := ⟨i 0, i 1, eq_ix2 i⟩
  unfold matmul
  rw [addf_apply, Cert.LibPlainProduct.matmul_zero_plain_apply, broadcastTo_1b_ab_apply, shapeCast_a_1a_apply,
    linearRows_apply]
  congr 1
  exact Finset.sum_congr rfl fun k _ => by rw [truncf_apply, transposed_apply, truncf_apply]

/-- The host's spelling. -/
theorem host_form (x : FVec Ideal ⟨2, ![N, K]⟩ .f32) (w : FVec Ideal ⟨2, ![M, K]⟩ .f32) (b : FVec Ideal ⟨1, ![M]⟩ .f32)
    (ht : (⟨2, ![M, K]⟩ : Shape).Transposes [1, 0] ⟨2, ![K, M]⟩)
    (h1 : (⟨1, ![M]⟩ : Shape).BroadcastsInDim ⟨2, ![1, M]⟩ ![1])
    (h01 : (⟨2, ![1, M]⟩ : Shape).BroadcastsInDim ⟨2, ![N, M]⟩ ![0, 1])
    (d : DotDims ⟨2, ![N, K]⟩ ⟨2, ![K, M]⟩ ⟨2, ![N, M]⟩) (hd : d = DotDims.plain N K M) :
    addf (Host.dotGeneral d none x (transpose ⟨2, ![K, M]⟩ [1, 0] w ht))
      (broadcastInDim ⟨2, ![N, M]⟩ ![0, 1] h01 (broadcastInDim ⟨2, ![1, M]⟩ ![1] h1 b)) = linearRows x w b := by
  subst hd
  funext i
  obtain ⟨p, j, rfl⟩ : ∃ (p : Fin N) (j : Fin M), i = ix2 p j := ⟨i 0, i 1, eq_ix2 i⟩
  unfold Host.dotGeneral
  rw [addf_apply, Cert.LibPlainProduct.dotGeneral_plain_apply, Cert.LibBroadcastRead.row_down_apply,
    Cert.LibBroadcastRead.vec_as_row_apply, linearRows_apply]
  congr 1
  exact Finset.sum_congr rfl fun k _ => by rw [transposed_apply]

/-- A block of rows of the output is the layer applied to that block of rows of the input: row `r` of a block `xb`
    that holds the rows `e r` of `x` gives row `e r` of the whole output. -/
theorem linearRows_block {B : ℕ} (x : FVec Ideal ⟨2, ![N, K]⟩ .f32) (w : FVec Ideal ⟨2, ![M, K]⟩ .f32)
    (b : FVec Ideal ⟨1, ![M]⟩ .f32) (xb : FVec Ideal ⟨2, ![B, K]⟩ .f32) (e : Fin B → Fin N)
    (hx : ∀ r k, xb (ix2 r k) = x (ix2 (e r) k)) (r : Fin B) (j : Fin M) :
    linearRows xb w b (ix2 r j) = linearRows x w b (ix2 (e r) j) := by
  rw [linearRows_apply, linearRows_apply]
  simp only [hx]

end Cert.LibLinearRows

end
-- ==== Proof.Linear.lean ====
/-
  The first region: the linear layer on every node's feature row.

  The region's grid walks the 50000 node rows in 10 blocks of 5000. At block `t` the body takes block `t` of the
  features, the whole weight matrix and the whole bias (their windows stay at block 0), computes the layer on the
  block's rows and writes the result back as block `t` of the output. An output row depends on its own input row
  only, and the blocks tile the output, so the output array ends as the layer applied to the whole feature matrix.
-/
import proofs.«168709_j72086731096478_1_alg».proof.Proof.Gen.KernelIdeal.Frame
import proofs.«168709_j72086731096478_1_alg».proof.Proof.LibLinearRows
import Idealize.ShloMosaic.Lib.Pipeline.Value

set_option maxRecDepth 16384

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)
open Cert.LibLinearRows

variable (V : (c : Dev nD) → (b : Ref sig .tc) → Buf (Elt Ideal) ((c : Thread nD τ).loc b))

theorem origin_zero : (![0, 0] : Fin 2 → Nat) = fun _ => 0 := funext fun a => by fin_cases a <;> rfl
theorem origin_zero1 : (![0] : Fin 1 → Nat) = fun _ => 0 := funext fun a => by fin_cases a; rfl

/-- The body's arithmetic on its three loaded blocks is the layer on the block's rows. -/
theorem body_eq (x0 : Vec Ideal S5000x256 .f32) (x1 : Vec Ideal S128x256 .f32) (x2 : Vec Ideal S128 .f32) :
    k0_pay1 x0 x1 x2 = linearRows x0 x1 x2 := by
  unfold k0_pay1
  exact matmul_form x0 x1 x2 _ _ _ _ _ rfl

/-- At grid point `t` the feature and output windows are at block `(t, 0)`, the weights and the bias at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The row of the whole matrix that row `r` of block `t` is: `5000 t + r`. -/
def row (t : Fin cfg0.N) (r : Fin 5000) : Fin 50000 :=
  ⟨t.val * 5000 + r.val, by have h : t.val < grid0.N := t.isLt; rw [N_0] at h; have := r.isLt; omega⟩

/-- Entry `(r, k)` of block `t` of the features sits at `(5000 t + r, k)` of the feature matrix. -/
theorem emb0 (t : Fin cfg0.N) (r : Fin 5000) (k : Fin 256) : ((cfg0.win 0).blk t).view.emb (ix2 r k) = ix2 (row t r) k := by
  obtain ⟨e0, e1, e2, e3, e4, e5, e6⟩ := idx_facts t
  funext a; apply Fin.ext
  match a with
  | ⟨0, _⟩ => show win0_0.index t (0 : Fin 2) * 5000 + 1 * r.val = t.val * 5000 + r.val; omega
  | ⟨1, _⟩ => show win0_0.index t (1 : Fin 2) * 256 + 1 * k.val = k.val; omega

/-- Entry `(r, q)` of block `t` of the output sits at `(5000 t + r, q)` of the output array. -/
theorem emb3 (t : Fin cfg0.N) (r : Fin 5000) (q : Fin 128) : ((cfg0.win 3).blk t).view.emb (ix2 r q) = ix2 (row t r) q := by
  obtain ⟨e0, e1, e2, e3, e4, e5, e6⟩ := idx_facts t
  funext a; apply Fin.ext
  match a with
  | ⟨0, _⟩ => show win0_3.index t (0 : Fin 2) * 5000 + 1 * r.val = t.val * 5000 + r.val; omega
  | ⟨1, _⟩ => show win0_3.index t (1 : Fin 2) * 128 + 1 * q.val = q.val; omega

/-- The weights' block at every point is the whole weight matrix. -/
theorem weights_whole (c : Dev nD) (t : Fin cfg0.N) : (iblk0 V c 1 t : Vec Ideal S128x256 .f32) = V c main_arg1 := by
  obtain ⟨e0, e1, e2, e3, e4, e5, e6⟩ := idx_facts t
  funext y
  show V c main_arg1 (((cfg0.win 1).blk t).view.emb y) = V c main_arg1 y
  congr 1
  funext a; apply Fin.ext
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- The bias' block at every point is the whole bias. -/
theorem bias_whole (c : Dev nD) (t : Fin cfg0.N) : (iblk0 V c 2 t : Vec Ideal S128 .f32) = V c main_arg2 := by
  obtain ⟨e0, e1, e2, e3, e4, e5, e6⟩ := idx_facts t
  funext y
  show V c main_arg2 (((cfg0.win 2).blk t).view.emb y) = V c main_arg2 y
  congr 1
  funext a; apply Fin.ext
  match a with
  | ⟨0, _⟩ => show win0_2.index t (0 : Fin 1) * 128 + 1 * (y 0).val = (y 0).val; omega

/-- What point `t` writes back is block `t` of the layer applied to the whole feature matrix. -/
theorem flushed_eq (c : Dev nD) (t : Fin cfg0.N) :
    (dat0 V c).flushed 3 t
      = ((cfg0.win 3).blk t).view.read (Elt Ideal) (linearRows (V c main_arg0) (V c main_arg1) (V c main_arg2)) := by
  show (cfg0.win 3).cut (grid0.coords t) ((dat0 V c).after 3 t) = _
  rw [after0_3]
  unfold out0_3
  rw [View.canon_unit_zero origin_zero]
  simp only [View.ld_unit_zero (S := S5000x256) origin_zero, View.ld_unit_zero (S := S128x256) origin_zero,
    View.ld_unit_zero (S := S128) origin_zero1]
  rw [body_eq]
  funext j
  obtain ⟨r, q, rfl⟩ : ∃ (r : Fin 5000) (q : Fin 128), j = ix2 r q := ⟨j 0, j 1, eq_ix2 j⟩
  show linearRows (iblk0 V c 0 t) (iblk0 V c 1 t) (iblk0 V c 2 t) (ix2 r q)
    = linearRows (V c main_arg0) (V c main_arg1) (V c main_arg2) (((cfg0.win 3).blk t).view.emb (ix2 r q))
  rw [emb3, weights_whole V c t, bias_whole V c t]
  exact linearRows_block (V c main_arg0) (V c main_arg1) (V c main_arg2) (iblk0 V c 0 t) (row t)
    (fun r k => by show V c main_arg0 (((cfg0.win 0).blk t).view.emb (ix2 r k)) = _; rw [emb0]) r q

/-- An index of the output array is in point `t`'s block iff its row is among the block's 5000 rows. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- The blocks tile the output: row `p` lies in block `p / 5000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 5000, by show _ < grid0.N; rw [N_0]; omega⟩
  obtain ⟨e0, e1, e2, e3, e4, e5, e6⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region: the layer on the whole feature matrix, whatever the entry contents `V`. -/
theorem array_eq (c : Dev nD) :
    (dat0 V c).arrAt 3 cfg0.N = linearRows (V c main_arg0) (V c main_arg1) (V c main_arg2) :=
  (dat0 V c).arrAt_eq_of_cover 3 (linearRows (V c main_arg0) (V c main_arg1) (V c main_arg2))
    (fun t _ => flushed_eq V c t) cover

end Cert.KernelIdeal.Linear

end
-- ==== Proof.LibRowScale.lean ====
/-
  Scaling the rows of a matrix by a column, read entry by entry, for every size.

  A matrix `a` of `n` rows and `m` columns and a column `s` of `n` entries give the matrix whose entry `(p, q)` is
  `a (p, q) · s p` on the extended reals (`rowScale`). Two spellings of it are met. A vector unit multiplies `a` by the
  column repeated along the columns (a broadcast of `[n, 1]` to `[n, m]`), both operands first recast to their own
  shapes. The host multiplies `a` by a vector `v` of `n` entries laid out in two steps: given a unit axis (`[n]` to
  `[n, 1]`), then repeated along it (`[n, 1]` to `[n, m]`); the column is then the vector recast to `[n, 1]`. Both are
  `rowScale`, entry by entry: a repeated column holds at `(p, q)` the column's entry `p`.
-/
import Idealize.ShloMosaic.Lib.ValueIdx
import Idealize.ShloMosaic.Lib.ValueLayout
import Idealize.ShloMosaic.Lib.Pipeline.Value
import proofs.«168709_j72086731096478_1_alg».proof.Proof.LibBroadcastRead

noncomputable section

namespace Cert.LibRowScale

open Idealize.ShloMosaic Idealize.ShloMosaic.ValueIdx Idealize.ShloMosaic.Pipeline

variable {α : Type} {n m : ℕ}

/-- A column `[n, 1]` repeated along `m` columns by a vector broadcast: entry `(p, q)` is the column's entry `p`. -/
theorem column_repeat_apply (v : (⟨2, ![n, 1]⟩ : Shape).Idx → α) (h : (⟨2, ![n, 1]⟩ : Shape).Broadcasts ⟨2, ![n, m]⟩)
    (p : Fin n) (q : Fin m) : broadcastTo ⟨2, ![n, m]⟩ v h (ix2 p q) = v (ix2 p (0 : Fin 1)) := by
  refine broadcastTo_apply v h (ix2 p q) (ix2 p (0 : Fin 1)) fun ax => ?_
  match ax with
  | ⟨0, _⟩ =>
    show p.val = if n = 1 then 0 else p.val
    split
    · have := p.isLt; omega
    · rfl
  | ⟨1, _⟩ => rfl

/-- A vector of `n` entries recast as a column `[n, 1]`: entry `(p, 0)` is the vector's entry `p`. -/
theorem vec_recast_col_apply (v : (⟨1, ![n]⟩ : Shape).Idx → α) (h : (⟨1, ![n]⟩ : Shape).ShapeCasts ⟨2, ![n, 1]⟩)
    (p : Fin n) (u : Fin 1) : shapeCast ⟨2, ![n, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- The rows of `a` scaled by the column `s`: entry `(p, q)` is `a (p, q) · s p`. -/
def rowScale (a : FVec Ideal ⟨2, ![n, m]⟩ .f32) (s : FVec Ideal ⟨2, ![n, 1]⟩ .f32) : FVec Ideal ⟨2, ![n, m]⟩ .f32 :=
  fun i => a i * s (ix2 (i 0) (0 : Fin 1))

theorem rowScale_apply (a : FVec Ideal ⟨2, ![n, m]⟩ .f32) (s : FVec Ideal ⟨2, ![n, 1]⟩ .f32) (p : Fin n) (q : Fin m) :
    rowScale a s (ix2 p q) = a (ix2 p q) * s (ix2 p (0 : Fin 1)) := rfl

/-- A block of rows of the scaled matrix is the block of rows scaled by the block of the column: when block row `r`
    of `a` and of `s` hold row `e r` of `A` and of `S`. -/
theorem rowScale_block {B : ℕ} (A : FVec Ideal ⟨2, ![n, m]⟩ .f32) (S : FVec Ideal ⟨2, ![n, 1]⟩ .f32)
    (a : FVec Ideal ⟨2, ![B, m]⟩ .f32) (s : FVec Ideal ⟨2, ![B, 1]⟩ .f32) (e : Fin B → Fin n)
    (ha : ∀ r q, a (ix2 r q) = A (ix2 (e r) q)) (hs : ∀ r, s (ix2 r (0 : Fin 1)) = S (ix2 (e r) (0 : Fin 1)))
    (r : Fin B) (q : Fin m) : rowScale a s (ix2 r q) = rowScale A S (ix2 (e r) q) := by
  rw [rowScale_apply, rowScale_apply, ha, hs]

/-- The vector unit's spelling: `a` times the column repeated along the columns, both recast to their own shapes. -/
theorem mul_column_repeat (a : FVec Ideal ⟨2, ![n, m]⟩ .f32) (s : FVec Ideal ⟨2, ![n, 1]⟩ .f32)
    (ha : (⟨2, ![n, m]⟩ : Shape).ShapeCasts ⟨2, ![n, m]⟩) (hs : (⟨2, ![n, 1]⟩ : Shape).ShapeCasts ⟨2, ![n, 1]⟩)
    (hb : (⟨2, ![n, 1]⟩ : Shape).Broadcasts ⟨2, ![n, m]⟩) :
    mulf (shapeCast ⟨2, ![n, m]⟩ a ha) (broadcastTo ⟨2, ![n, m]⟩ (shapeCast ⟨2, ![n, 1]⟩ s hs) hb) = rowScale a s := by
  funext i
  obtain ⟨p, q, rfl⟩ : ∃ (p : Fin n) (q : Fin m), i = ix2 p q := ⟨i 0, i 1, eq_ix2 i⟩
  rw [mulf_apply, shapeCast_self, shapeCast_self, column_repeat_apply]
  rfl

/-- The host's spelling: `a` times the vector `v` given a unit axis and repeated along it; the column is `v` recast. -/
theorem mul_vec_laid_out (a : FVec Ideal ⟨2, ![n, m]⟩ .f32) (v : FVec Ideal ⟨1, ![n]⟩ .f32)
    (h0 : (⟨1, ![n]⟩ : Shape).BroadcastsInDim ⟨2, ![n, 1]⟩ ![0])
    (h01 : (⟨2, ![n, 1]⟩ : Shape).BroadcastsInDim ⟨2, ![n, m]⟩ ![0, 1])
    (hc : (⟨1, ![n]⟩ : Shape).ShapeCasts ⟨2, ![n, 1]⟩) :
    mulf a (broadcastInDim ⟨2, ![n, m]⟩ ![0, 1] h01 (broadcastInDim ⟨2, ![n, 1]⟩ ![0] h0 v))
      = rowScale a (shapeCast ⟨2, ![n, 1]⟩ v hc) := by
  funext i
  obtain ⟨p, q, rfl⟩ : ∃ (p : Fin n) (q : Fin m), i = ix2 p q := ⟨i 0, i 1, eq_ix2 i⟩
  rw [mulf_apply, Cert.LibBroadcastRead.col_along_apply, Cert.LibBroadcastRead.vec_as_col_apply, rowScale_apply,
    vec_recast_col_apply]

end Cert.LibRowScale

end
-- ==== Proof.EdgeScale.lean ====
/-
  The second region: every edge's message row scaled by its source node's normalisation.

  The region's grid walks the 625000 edge rows in 125 blocks of 5000. At block `t` the body multiplies the block of
  gathered feature rows by the block of the normalisation column repeated along the 128 features, and the result is
  written back as block `t` of the output. All three windows move together (block `t` of each), and the blocks tile the
  output, so the output array ends as the whole matrix of rows scaled by the whole column.
-/
import proofs.«168709_j72086731096478_1_alg».proof.Proof.Gen.KernelIdeal.Frame
import proofs.«168709_j72086731096478_1_alg».proof.Proof.LibRowScale
import Idealize.ShloMosaic.Lib.Pipeline.Value

set_option maxRecDepth 16384

noncomputable section

namespace Cert.KernelIdeal.EdgeScale

open Cert.KernelIdeal Cert.KernelIdeal.Gen Idealize.ShloMosaic Idealize.ShloMosaic.TcCoe Idealize.SL.Sem
open Idealize.ShloMosaic.ValueIdx
open Idealize.ShloMosaic.Pipeline (Dat)
open Cert.LibRowScale

variable (V : (c : Dev nD) → (b : Ref sig .tc) → Buf (Elt Ideal) ((c : Thread nD τ).loc b))

theorem origin_zero : (![0, 0] : Fin 2 → Nat) = fun _ => 0 := funext fun a => by fin_cases a <;> rfl

/-- The body's arithmetic on its two loaded blocks is the block of rows scaled by the block of the column. -/
theorem body_eq (x0 : Vec Ideal S5000x128 .f32) (x1 : Vec Ideal S5000x1 .f32) : k1_pay1 x0 x1 = rowScale x0 x1 := by
  unfold k1_pay1
  exact mul_column_repeat x0 x1 _ _ _

/-- Every window's block index at grid point `t` is `(t, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The row of the whole matrix that row `r` of block `t` is: `5000 t + r`. -/
def row (t : Fin cfg1.N) (r : Fin 5000) : Fin 625000 :=
  ⟨t.val * 5000 + r.val, by have h : t.val < grid1.N := t.isLt; rw [N_1] at h; have := r.isLt; omega⟩

/-- Entry `(r, q)` of block `t` of the gathered rows sits at `(5000 t + r, q)` of their array. -/
theorem emb0 (t : Fin cfg1.N) (r : Fin 5000) (q : Fin 128) : ((cfg1.win 0).blk t).view.emb (ix2 r q) = ix2 (row t r) q := by
  obtain ⟨e0, e1, e2, e3, e4, e5⟩ := idx_facts t
  funext a; apply Fin.ext
  match a with
  | ⟨0, _⟩ => show win1_0.index t (0 : Fin 2) * 5000 + 1 * r.val = t.val * 5000 + r.val; omega
  | ⟨1, _⟩ => show win1_0.index t (1 : Fin 2) * 128 + 1 * q.val = q.val; omega

/-- Entry `(r, 0)` of block `t` of the column sits at `(5000 t + r, 0)` of the column. -/
theorem emb1 (t : Fin cfg1.N) (r : Fin 5000) (u : Fin 1) : ((cfg1.win 1).blk t).view.emb (ix2 r u) = ix2 (row t r) u := by
  obtain ⟨e0, e1, e2, e3, e4, e5⟩ := idx_facts t
  funext a; apply Fin.ext
  match a with
  | ⟨0, _⟩ => show win1_1.index t (0 : Fin 2) * 5000 + 1 * r.val = t.val * 5000 + r.val; omega
  | ⟨1, _⟩ => show win1_1.index t (1 : Fin 2) * 1 + 1 * u.val = u.val; omega

/-- Entry `(r, q)` of block `t` of the output sits at `(5000 t + r, q)` of the output array. -/
theorem emb2 (t : Fin cfg1.N) (r : Fin 5000) (q : Fin 128) : ((cfg1.win 2).blk t).view.emb (ix2 r q) = ix2 (row t r) q := by
  obtain ⟨e0, e1, e2, e3, e4, e5⟩ := idx_facts t
  funext a; apply Fin.ext
  match a with
  | ⟨0, _⟩ => show win1_2.index t (0 : Fin 2) * 5000 + 1 * r.val = t.val * 5000 + r.val; omega
  | ⟨1, _⟩ => show win1_2.index t (1 : Fin 2) * 128 + 1 * q.val = q.val; omega

/-- What point `t` writes back is block `t` of the whole matrix of scaled rows. -/
theorem flushed_eq (c : Dev nD) (t : Fin cfg1.N) :
    (dat1 V c).flushed 2 t = ((cfg1.win 2).blk t).view.read (Elt Ideal) (rowScale (V c main_v22) (V c main_v30)) := by
  show (cfg1.win 2).cut (grid1.coords t) ((dat1 V c).after 2 t) = _
  rw [after1_2]
  unfold out1_2
  rw [View.canon_unit_zero origin_zero]
  simp only [View.ld_unit_zero (S := S5000x128) origin_zero, View.ld_unit_zero (S := S5000x1) origin_zero]
  rw [body_eq]
  funext j
  obtain ⟨r, q, rfl⟩ : ∃ (r : Fin 5000) (q : Fin 128), j = ix2 r q := ⟨j 0, j 1, eq_ix2 j⟩
  show rowScale (iblk1 V c 0 t) (iblk1 V c 1 t) (ix2 r q)
    = rowScale (V c main_v22) (V c main_v30) (((cfg1.win 2).blk t).view.emb (ix2 r q))
  rw [emb2]
  exact rowScale_block (V c main_v22) (V c main_v30) (iblk1 V c 0 t) (iblk1 V c 1 t) (row t)
    (fun r q => by show V c main_v22 (((cfg1.win 0).blk t).view.emb (ix2 r q)) = _; rw [emb0])
    (fun r => by show V c main_v30 (((cfg1.win 1).blk t).view.emb (ix2 r (0 : Fin 1))) = _; rw [emb1]) r q

/-- An index of the output array is in point `t`'s block iff its row is among the block's 5000 rows. -/
theorem mem_blk (t : Fin cfg1.N) (i : S625000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v31).slice (win1_2.rect t)).set ↔ _
  rw [View.set_slice_whole, Rect.mem_set_unit]
  exact Iff.rfl

/-- The blocks tile the output: row `p` lies in block `p / 5000`. -/
theorem cover (i : S625000x128.Idx) : ∃ t : Fin cfg1.N, (cfg1.win 2).flush t = true ∧ i ∈ ((cfg1.win 2).blk t).view.set := by
  have hi0 : (i 0).val < 625000 := (i 0).isLt
  have hi1 : (i 1).val < 128 := (i 1).isLt
  let t : Fin cfg1.N := ⟨(i 0).val / 5000, by show _ < grid1.N; rw [N_1]; omega⟩
  obtain ⟨e0, e1, e2, e3, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region: the gathered rows scaled by the column, whatever the entry contents `V`. -/
theorem array_eq (c : Dev nD) : (dat1 V c).arrAt 2 cfg1.N = rowScale (V c main_v22) (V c main_v30) :=
  (dat1 V c).arrAt_eq_of_cover 2 (rowScale (V c main_v22) (V c main_v30)) (fun t _ => flushed_eq V c t) cover

end Cert.KernelIdeal.EdgeScale

end
-- ==== Proof.NodeScale.lean ====
/- The third region: every node's aggregated row scaled by the node's own normalisation.

  The region's grid walks the 50000 node rows in 10 blocks of 5000. At block `t` the body multiplies the block of
  aggregated rows by the block of the normalisation column repeated along the 128 features, and the result is
  written back as block `t` of the output. All three windows move together (block `t` of each), and the blocks tile the
  output, so the output array ends as the whole matrix of rows scaled by the whole column.
-/
import proofs.«168709_j72086731096478_1_alg».proof.Proof.Gen.KernelIdeal.Frame
import proofs.«168709_j72086731096478_1_alg».proof.Proof.LibRowScale
import Idealize.ShloMosaic.Lib.Pipeline.Value

set_option maxRecDepth 16384

noncomputable section

namespace Cert.KernelIdeal.NodeScale

open Cert.KernelIdeal Cert.KernelIdeal.Gen Idealize.ShloMosaic Idealize.ShloMosaic.TcCoe Idealize.SL.Sem
open Idealize.ShloMosaic.ValueIdx
open Idealize.ShloMosaic.Pipeline (Dat)
open Cert.LibRowScale

variable (V : (c : Dev nD) → (b : Ref sig .tc) → Buf (Elt Ideal) ((c : Thread nD τ).loc b))

theorem origin_zero : (![0, 0] : Fin 2 → Nat) = fun _ => 0 := funext fun a => by fin_cases a <;> rfl

/-- The body's arithmetic on its two loaded blocks is the block of rows scaled by the block of the column. -/
theorem body_eq (x0 : Vec Ideal S5000x128 .f32) (x1 : Vec Ideal S5000x1 .f32) : k2_pay1 x0 x1 = rowScale x0 x1 := by
  unfold k2_pay1
  exact mul_column_repeat x0 x1 _ _ _

/-- Every window's block index at grid point `t` is `(t, 0)`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The row of the whole matrix that row `r` of block `t` is: `5000 t + r`. -/
def row (t : Fin cfg2.N) (r : Fin 5000) : Fin 50000 :=
  ⟨t.val * 5000 + r.val, by have h : t.val < grid2.N := t.isLt; rw [N_2] at h; have := r.isLt; omega⟩

/-- Entry `(r, q)` of block `t` of the aggregated rows sits at `(5000 t + r, q)` of their array. -/
theorem emb0 (t : Fin cfg2.N) (r : Fin 5000) (q : Fin 128) : ((cfg2.win 0).blk t).view.emb (ix2 r q) = ix2 (row t r) q := by
  obtain ⟨e0, e1, e2, e3, e4, e5⟩ := idx_facts t
  funext a; apply Fin.ext
  match a with
  | ⟨0, _⟩ => show win2_0.index t (0 : Fin 2) * 5000 + 1 * r.val = t.val * 5000 + r.val; omega
  | ⟨1, _⟩ => show win2_0.index t (1 : Fin 2) * 128 + 1 * q.val = q.val; omega

/-- Entry `(r, 0)` of block `t` of the column sits at `(5000 t + r, 0)` of the column. -/
theorem emb1 (t : Fin cfg2.N) (r : Fin 5000) (u : Fin 1) : ((cfg2.win 1).blk t).view.emb (ix2 r u) = ix2 (row t r) u := by
  obtain ⟨e0, e1, e2, e3, e4, e5⟩ := idx_facts t
  funext a; apply Fin.ext
  match a with
  | ⟨0, _⟩ => show win2_1.index t (0 : Fin 2) * 5000 + 1 * r.val = t.val * 5000 + r.val; omega
  | ⟨1, _⟩ => show win2_1.index t (1 : Fin 2) * 1 + 1 * u.val = u.val; omega

/-- Entry `(r, q)` of block `t` of the output sits at `(5000 t + r, q)` of the output array. -/
theorem emb2 (t : Fin cfg2.N) (r : Fin 5000) (q : Fin 128) : ((cfg2.win 2).blk t).view.emb (ix2 r q) = ix2 (row t r) q := by
  obtain ⟨e0, e1, e2, e3, e4, e5⟩ := idx_facts t
  funext a; apply Fin.ext
  match a with
  | ⟨0, _⟩ => show win2_2.index t (0 : Fin 2) * 5000 + 1 * r.val = t.val * 5000 + r.val; omega
  | ⟨1, _⟩ => show win2_2.index t (1 : Fin 2) * 128 + 1 * q.val = q.val; omega

/-- What point `t` writes back is block `t` of the whole matrix of scaled rows. -/
theorem flushed_eq (c : Dev nD) (t : Fin cfg2.N) :
    (dat2 V c).flushed 2 t = ((cfg2.win 2).blk t).view.read (Elt Ideal) (rowScale (V c main_v34) (V c main_v35)) := by
  show (cfg2.win 2).cut (grid2.coords t) ((dat2 V c).after 2 t) = _
  rw [after2_2]
  unfold out2_2
  rw [View.canon_unit_zero origin_zero]
  simp only [View.ld_unit_zero (S := S5000x128) origin_zero, View.ld_unit_zero (S := S5000x1) origin_zero]
  rw [body_eq]
  funext j
  obtain ⟨r, q, rfl⟩ : ∃ (r : Fin 5000) (q : Fin 128), j = ix2 r q := ⟨j 0, j 1, eq_ix2 j⟩
  show rowScale (iblk2 V c 0 t) (iblk2 V c 1 t) (ix2 r q)
    = rowScale (V c main_v34) (V c main_v35) (((cfg2.win 2).blk t).view.emb (ix2 r q))
  rw [emb2]
  exact rowScale_block (V c main_v34) (V c main_v35) (iblk2 V c 0 t) (iblk2 V c 1 t) (row t)
    (fun r q => by show V c main_v34 (((cfg2.win 0).blk t).view.emb (ix2 r q)) = _; rw [emb0])
    (fun r => by show V c main_v35 (((cfg2.win 1).blk t).view.emb (ix2 r (0 : Fin 1))) = _; rw [emb1]) r q

/-- An index of the output array is in point `t`'s block iff its row is among the block's 5000 rows. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v36).slice (win2_2.rect t)).set ↔ _
  rw [View.set_slice_whole, Rect.mem_set_unit]
  exact Iff.rfl

/-- The blocks tile the output: row `p` lies in block `p / 5000`. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := ⟨(i 0).val / 5000, by show _ < grid2.N; rw [N_2]; omega⟩
  obtain ⟨e0, e1, e2, e3, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region: the aggregated rows scaled by the column, whatever the entry contents `V`. -/
theorem array_eq (c : Dev nD) : (dat2 V c).arrAt 2 cfg2.N = rowScale (V c main_v34) (V c main_v35) :=
  (dat2 V c).arrAt_eq_of_cover 2 (rowScale (V c main_v34) (V c main_v35)) (fun t _ => flushed_eq V c t) cover

end Cert.KernelIdeal.NodeScale

end
-- ==== Proof.HostChain.lean ====
/-
  The kernel program's result as one term of its arguments.

  Between its three regions the program runs host operations. From the edge list (two rows of 625000 node numbers)
  they take row 0, every edge's destination (`dstVec`), and row 1, every edge's source (`srcVec`); a vector of node
  numbers becomes an index column, a negative number wrapped by 50000 (`wrapIdx`); every node's in-degree is ones
  scatter-added at the destinations (`degreeOf`); the normalisation (`normOf`) is `1 / sqrt (max degree 1)` where the
  degree is positive and `0` elsewhere. The first region's output is gathered at the sources row by row, and so is
  the normalisation, recast as a column; the second region scales the one by the other; the result is scatter-added at
  the destinations into a zero matrix; the third region scales that by the normalisation recast as a column.
  Each stretch of host operations is read at an arbitrary valuation of the buffers at its entry (so that the fold
  stops there); each region's output array is its own module's; the chain is then walked from the last boundary back to
  the launch memory (`result_eq`).
-/
import proofs.«168709_j72086731096478_1_alg».proof.Proof.KernelRun
import proofs.«168709_j72086731096478_1_alg».proof.Proof.Linear
import proofs.«168709_j72086731096478_1_alg».proof.Proof.EdgeScale
import proofs.«168709_j72086731096478_1_alg».proof.Proof.NodeScale
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem
open Idealize.ShloMosaic.StableHlo
open Cert.LibLinearRows Cert.LibRowScale

/-! ## The host operations as functions -/

section Terms
variable {F : FTy → Type} [FloatOps F]

/-- Row 0 of the edge list: every edge's destination node. -/
def dstVec (ei : (⟨S2x625000, .i32⟩ : BufTy).Contents (Elt F)) : (⟨S625000, .i32⟩ : BufTy).Contents (Elt F) :=
  shapeCast S625000 (extractStridedSlice S1x625000 ![0, 0] ei slices_S2x625000_S1x625000_0_0) shapeCasts_S1x625000_S625000
/-- Row 1 of the edge list: every edge's source node. -/
def srcVec (ei : (⟨S2x625000, .i32⟩ : BufTy).Contents (Elt F)) : (⟨S625000, .i32⟩ : BufTy).Contents (Elt F) :=
  shapeCast S625000 (extractStridedSlice S1x625000 ![1, 0] ei slices_S2x625000_S1x625000_1_0) shapeCasts_S1x625000_S625000
/-- Node numbers as an index column. -/
def idxCol (s : (⟨S625000, .i32⟩ : BufTy).Contents (Elt F)) : (⟨S625000x1, .i32⟩ : BufTy).Contents (Elt F) :=
  broadcastInDim S625000x1 ![0] bcast_S625000_S625000x1_0 s
/-- Node numbers as an index column, a negative number wrapped by 50000. -/
def wrapIdx (s : (⟨S625000, .i32⟩ : BufTy).Contents (Elt F)) : (⟨S625000x1, .i32⟩ : BufTy).Contents (Elt F) :=
  idxCol (select (cmpi .slt s (broadcastInDim S625000 ![] bcast_S_S625000 (constantI S_ 32 0#32)))
      (addi s (broadcastInDim S625000 ![] bcast_S_S625000 (constantI S_ 32 50000#32))) s)
/-- The zero vector over the nodes. -/
def zerosN : (⟨S50000, .f32⟩ : BufTy).Contents (Elt F) :=
  broadcastInDim S50000 ![] bcast_S_S50000 (constant (F := F) S_ .f32 0x00000000#32)
/-- Every node's in-degree: ones scatter-added at the destinations `d`. -/
def degreeOf (d : (⟨S625000, .i32⟩ : BufTy).Contents (Elt F)) : (⟨S50000, .f32⟩ : BufTy).Contents (Elt F) :=
  Host.scatterAdd scatter_S50000_S625000x1_S625000_n_0_0_1 zerosN (idxCol d)
    (broadcastInDim S625000 ![] bcast_S_S625000 (constant (F := F) S_ .f32 0x3F800000#32))
/-- Where the degree is positive. -/
def positive (deg : (⟨S50000, .f32⟩ : BufTy).Contents (Elt F)) : (⟨S50000, .i1⟩ : BufTy).Contents (Elt F) :=
  cmpf (F := F) .ogt deg zerosN
/-- `1 / sqrt (max degree 1)`. -/
def invSqrt (deg : (⟨S50000, .f32⟩ : BufTy).Contents (Elt F)) : (⟨S50000, .f32⟩ : BufTy).Contents (Elt F) :=
  Host.rsqrt (maximumf deg (broadcastInDim S50000 ![] bcast_S_S50000 (constant (F := F) S_ .f32 0x3F800000#32)))

/-- The normalisation from the destinations `d`: `1 / sqrt (max degree 1)` where the degree is positive, `0` elsewhere. -/
def normOf (d : (⟨S625000, .i32⟩ : BufTy).Contents (Elt F)) : (⟨S50000, .f32⟩ : BufTy).Contents (Elt F) :=
  select (positive (degreeOf d)) (invSqrt (degreeOf d)) zerosN
/-- Edge rows scatter-added at the destinations `d` into a zero matrix. -/
def aggregate (d : (⟨S625000, .i32⟩ : BufTy).Contents (Elt F)) (msg : (⟨S625000x128, .f32⟩ : BufTy).Contents (Elt F)) :
    (⟨S50000x128, .f32⟩ : BufTy).Contents (Elt F) :=
  Host.scatterAdd scatter_S50000x128_S625000x1_S625000x128_1_0_0_1
    (broadcastInDim S50000x128 ![] bcast_S_S50000x128 (constant (F := F) S_ .f32 0x00000000#32)) (idxCol d) msg
/-- The rows of `h` at the sources `s`. -/
def rowsAt (s : (⟨S625000, .i32⟩ : BufTy).Contents (Elt F)) (h : (⟨S50000x128, .f32⟩ : BufTy).Contents (Elt F)) :
    (⟨S625000x128, .f32⟩ : BufTy).Contents (Elt F) :=
  Host.gather gather_S50000x128_S625000x1_S625000x128_1_0_n_n_0_1_1128 h (wrapIdx s)
/-- The entries of `v` at the sources `s`. -/
def entriesAt (s : (⟨S625000, .i32⟩ : BufTy).Contents (Elt F)) (v : (⟨S50000, .f32⟩ : BufTy).Contents (Elt F)) :
    (⟨S625000, .f32⟩ : BufTy).Contents (Elt F) :=
  Host.gather gather_S50000_S625000x1_S625000_n_0_n_n_0_1_1 v (wrapIdx s)

end Terms

/-! ## Each stretch of host operations, from any contents `Wp` of the buffers at its entry -/

section Stretches
variable {F : FTy → Type} [FloatOps F] (Wp : Valuation τ sig (Elt F))

set_option maxHeartbeats 1000000 in
/-- The first stretch leaves the destinations, -/
theorem first_dst : StableHlo.after hostOps1 Wp (Proc.devRef .tc main_v2) = dstVec (Wp (Proc.devRef .tc main_arg3)) := by
  after_results_simp <;> rfl
set_option maxHeartbeats 1000000 in
/-- the sources, -/
theorem first_src : StableHlo.after hostOps1 Wp (Proc.devRef .tc main_v4) = srcVec (Wp (Proc.devRef .tc main_arg3)) := by
  after_results_simp <;> rfl
set_option maxHeartbeats 1000000 in
/-- where the degree is positive, -/
theorem first_pos : StableHlo.after hostOps1 Wp (Proc.devRef .tc main_v10)
    = positive (degreeOf (dstVec (Wp (Proc.devRef .tc main_arg3)))) := by
  after_results_simp <;> rfl
set_option maxHeartbeats 1000000 in
/-- the inverse square root of the degree, -/
theorem first_inv : StableHlo.after hostOps1 Wp (Proc.devRef .tc main_v13)
    = invSqrt (degreeOf (dstVec (Wp (Proc.devRef .tc main_arg3)))) := by
  after_results_simp <;> rfl
set_option maxHeartbeats 1000000 in
/-- zeros, -/
theorem first_zeros : StableHlo.after hostOps1 Wp (Proc.devRef .tc main_v14) = zerosN := by
  after_results_simp <;> rfl
set_option maxHeartbeats 1000000 in
/-- and the first region's output as it was. -/
theorem first_keeps : StableHlo.after hostOps1 Wp (Proc.devRef .tc main_v0) = Wp (Proc.devRef .tc main_v0) := by
  after_results_simp <;> rfl

/-- The second stretch is the selection of the normalisation; -/
theorem second_norm : StableHlo.after hostOps1_1 Wp (Proc.devRef .tc main_v15)
    = select (Wp (Proc.devRef .tc main_v10)) (Wp (Proc.devRef .tc main_v13)) (Wp (Proc.devRef .tc main_v14)) := by
  after_results_simp <;> (try simp only [TRef.ofBuf, TRef.toBuf, cast_eq]) <;> rfl
/-- it keeps every other buffer. -/
theorem second_keeps (r : Ref sig .tc) (h : r ≠ main_v15) :
    StableHlo.after hostOps1_1 Wp (Proc.devRef .tc r) = Wp (Proc.devRef .tc r) :=
  StableHlo.after_of_forall_not_mem (b := Proc.devRef .tc r) _ _ (List.forall_iff_forall_mem.mp (by
    simp only [hostOps1_1, List.Forall, StableHlo.ternary_writes, Finset.mem_singleton]
    exact StableHlo.devRef_ne_of_ne h))

set_option maxHeartbeats 1000000 in
/-- The third stretch gathers the first region's rows at the sources, -/
theorem third_rows : StableHlo.after hostOps1_2 Wp (Proc.devRef .tc main_v22)
    = Host.gather gather_S50000x128_S625000x1_S625000x128_1_0_n_n_0_1_1128 (Wp (Proc.devRef .tc main_v0))
        (wrapIdx (Wp (Proc.devRef .tc main_v4))) := by
  after_results_simp <;> rfl
set_option maxHeartbeats 1000000 in
/-- and the normalisation at the sources, recast as a column; -/
theorem third_norm : StableHlo.after hostOps1_2 Wp (Proc.devRef .tc main_v30)
    = shapeCast S625000x1 (Host.gather gather_S50000_S625000x1_S625000_n_0_n_n_0_1_1 (Wp (Proc.devRef .tc main_v15))
        (wrapIdx (Wp (Proc.devRef .tc main_v4)))) shapeCasts_S625000_S625000x1 := by
  after_results_simp <;> rfl
set_option maxHeartbeats 1000000 in
/-- it keeps the destinations -/
theorem third_keeps_dst : StableHlo.after hostOps1_2 Wp (Proc.devRef .tc main_v2) = Wp (Proc.devRef .tc main_v2) := by
  after_results_simp <;> rfl
set_option maxHeartbeats 1000000 in
/-- and the normalisation. -/
theorem third_keeps_norm : StableHlo.after hostOps1_2 Wp (Proc.devRef .tc main_v15) = Wp (Proc.devRef .tc main_v15) := by
  after_results_simp <;> rfl

/-- The last stretch scatter-adds the second region's rows at the destinations into a zero matrix, -/
theorem last_sum : StableHlo.after hostOps2 Wp (Proc.devRef .tc main_v34)
    = Host.scatterAdd scatter_S50000x128_S625000x1_S625000x128_1_0_0_1
        (broadcastInDim S50000x128 ![] bcast_S_S50000x128 (constant (F := F) S_ .f32 0x00000000#32))
        (idxCol (Wp (Proc.devRef .tc main_v2))) (Wp (Proc.devRef .tc main_v31)) := by
  after_results_simp <;> rfl
/-- and recasts the normalisation as a column. -/
theorem last_norm : StableHlo.after hostOps2 Wp (Proc.devRef .tc main_v35)
    = shapeCast S50000x1 (Wp (Proc.devRef .tc main_v15)) shapeCasts_S50000_S50000x1 := by
  after_results_simp <;> rfl

end Stretches

/-! ## The whole chain, at the exact instance -/

/-- The program's result as a function of its four arguments: the layer's rows gathered at the sources and scaled by
    the sources' normalisation, summed at the destinations, scaled by the destinations' normalisation. -/
def result (x : (⟨S50000x256, .f32⟩ : BufTy).Contents (Elt Ideal)) (w : (⟨S128x256, .f32⟩ : BufTy).Contents (Elt Ideal))
    (b : (⟨S128, .f32⟩ : BufTy).Contents (Elt Ideal)) (ei : (⟨S2x625000, .i32⟩ : BufTy).Contents (Elt Ideal)) :
    (⟨S50000x128, .f32⟩ : BufTy).Contents (Elt Ideal) :=
  rowScale (n := 50000) (m := 128)
    (aggregate (dstVec ei) (rowScale (n := 625000) (m := 128) (rowsAt (srcVec ei) (linearRows (N := 50000) (K := 256) (M := 128) x w b))
      (shapeCast S625000x1 (entriesAt (srcVec ei) (normOf (dstVec ei))) shapeCasts_S625000_S625000x1)))
    (shapeCast S50000x1 (normOf (dstVec ei)) shapeCasts_S50000_S50000x1)

variable (m : (ℓ : Loc nD τ sig) → Buf (Elt Ideal) ℓ) (ρ : Dev nD → PrngReg)

/-- At the last boundary the result array holds `result` of the launch arguments. -/
theorem result_eq (c : Dev nD) :
    W7 m ρ c (Proc.devRef .tc main_v36)
      = result (m ((c : Thread nD τ).loc main_arg0)) (m ((c : Thread nD τ).loc main_arg1))
          (m ((c : Thread nD τ).loc main_arg2)) (m ((c : Thread nD τ).loc main_arg3)) := by
  -- the first region's exit
  have hei : W1 m ρ c (Proc.devRef .tc main_arg3) = m ((c : Thread nD τ).loc main_arg3) := W1_of_ne m ρ c main_arg3 (by decide)
  have hH : W1 m ρ c (Proc.devRef .tc main_v0)
      = linearRows (N := 50000) (K := 256) (M := 128) (m ((c : Thread nD τ).loc main_arg0)) (m ((c : Thread nD τ).loc main_arg1)) (m ((c : Thread nD τ).loc main_arg2)) :=
    (W1_arr m ρ c 3).trans (Linear.array_eq (V0 m ρ) c)
  -- after the first stretch
  have a_dst : W2 m ρ c (Proc.devRef .tc main_v2) = dstVec (m ((c : Thread nD τ).loc main_arg3)) := (first_dst (W1 m ρ c)).trans (congrArg dstVec hei)
  have a_src : W2 m ρ c (Proc.devRef .tc main_v4) = srcVec (m ((c : Thread nD τ).loc main_arg3)) := (first_src (W1 m ρ c)).trans (congrArg srcVec hei)
  have a_pos : W2 m ρ c (Proc.devRef .tc main_v10) = positive (degreeOf (dstVec (m ((c : Thread nD τ).loc main_arg3)))) :=
    (first_pos (W1 m ρ c)).trans (congrArg (fun e => positive (degreeOf (dstVec e))) hei)
  have a_inv : W2 m ρ c (Proc.devRef .tc main_v13) = invSqrt (degreeOf (dstVec (m ((c : Thread nD τ).loc main_arg3)))) :=
    (first_inv (W1 m ρ c)).trans (congrArg (fun e => invSqrt (degreeOf (dstVec e))) hei)
  have a_zer : W2 m ρ c (Proc.devRef .tc main_v14) = zerosN := first_zeros (W1 m ρ c)
  have a_h : W2 m ρ c (Proc.devRef .tc main_v0) = linearRows (N := 50000) (K := 256) (M := 128) (m ((c : Thread nD τ).loc main_arg0)) (m ((c : Thread nD τ).loc main_arg1)) (m ((c : Thread nD τ).loc main_arg2)) := (first_keeps (W1 m ρ c)).trans hH
  -- after the selection
  have b_nrm : W3 m ρ c (Proc.devRef .tc main_v15) = normOf (dstVec (m ((c : Thread nD τ).loc main_arg3))) :=
    (second_norm (W2 m ρ c)).trans (by rw [a_pos, a_inv, a_zer]; rfl)
  have b_h : W3 m ρ c (Proc.devRef .tc main_v0) = linearRows (N := 50000) (K := 256) (M := 128) (m ((c : Thread nD τ).loc main_arg0)) (m ((c : Thread nD τ).loc main_arg1)) (m ((c : Thread nD τ).loc main_arg2)) := (second_keeps (W2 m ρ c) main_v0 (by decide)).trans a_h
  have b_dst : W3 m ρ c (Proc.devRef .tc main_v2) = dstVec (m ((c : Thread nD τ).loc main_arg3)) := (second_keeps (W2 m ρ c) main_v2 (by decide)).trans a_dst
  have b_src : W3 m ρ c (Proc.devRef .tc main_v4) = srcVec (m ((c : Thread nD τ).loc main_arg3)) := (second_keeps (W2 m ρ c) main_v4 (by decide)).trans a_src
  -- the second region's entry
  have c_rows : W4 m ρ c (Proc.devRef .tc main_v22) = rowsAt (srcVec (m ((c : Thread nD τ).loc main_arg3))) (linearRows (N := 50000) (K := 256) (M := 128) (m ((c : Thread nD τ).loc main_arg0)) (m ((c : Thread nD τ).loc main_arg1)) (m ((c : Thread nD τ).loc main_arg2))) :=
    (third_rows (W3 m ρ c)).trans (by rw [b_h, b_src]; rfl)
  have c_nrm : W4 m ρ c (Proc.devRef .tc main_v30)
      = shapeCast S625000x1 (entriesAt (srcVec (m ((c : Thread nD τ).loc main_arg3))) (normOf (dstVec (m ((c : Thread nD τ).loc main_arg3))))) shapeCasts_S625000_S625000x1 :=
    (third_norm (W3 m ρ c)).trans (by rw [b_nrm, b_src]; rfl)
  have c_dst : W4 m ρ c (Proc.devRef .tc main_v2) = dstVec (m ((c : Thread nD τ).loc main_arg3)) := (third_keeps_dst (W3 m ρ c)).trans b_dst
  have c_keep : W4 m ρ c (Proc.devRef .tc main_v15) = normOf (dstVec (m ((c : Thread nD τ).loc main_arg3))) := (third_keeps_norm (W3 m ρ c)).trans b_nrm
  -- the second region's exit
  have d_msg : W5 m ρ c (Proc.devRef .tc main_v31)
      = rowScale (n := 625000) (m := 128) (rowsAt (srcVec (m ((c : Thread nD τ).loc main_arg3))) (linearRows (N := 50000) (K := 256) (M := 128) (m ((c : Thread nD τ).loc main_arg0)) (m ((c : Thread nD τ).loc main_arg1)) (m ((c : Thread nD τ).loc main_arg2))))
          (shapeCast S625000x1 (entriesAt (srcVec (m ((c : Thread nD τ).loc main_arg3))) (normOf (dstVec (m ((c : Thread nD τ).loc main_arg3))))) shapeCasts_S625000_S625000x1) :=
    (W5_arr m ρ c 2).trans ((EdgeScale.array_eq (V4 m ρ) c).trans (congrArg₂ (rowScale (n := 625000) (m := 128)) c_rows c_nrm))
  have d_dst : W5 m ρ c (Proc.devRef .tc main_v2) = dstVec (m ((c : Thread nD τ).loc main_arg3)) := (W5_of_ne m ρ c main_v2 (by decide)).trans c_dst
  have d_keep : W5 m ρ c (Proc.devRef .tc main_v15) = normOf (dstVec (m ((c : Thread nD τ).loc main_arg3))) := (W5_of_ne m ρ c main_v15 (by decide)).trans c_keep
  -- the third region's entry
  have e_sum : W6 m ρ c (Proc.devRef .tc main_v34)
      = aggregate (dstVec (m ((c : Thread nD τ).loc main_arg3))) (rowScale (n := 625000) (m := 128) (rowsAt (srcVec (m ((c : Thread nD τ).loc main_arg3))) (linearRows (N := 50000) (K := 256) (M := 128) (m ((c : Thread nD τ).loc main_arg0)) (m ((c : Thread nD τ).loc main_arg1)) (m ((c : Thread nD τ).loc main_arg2))))
          (shapeCast S625000x1 (entriesAt (srcVec (m ((c : Thread nD τ).loc main_arg3))) (normOf (dstVec (m ((c : Thread nD τ).loc main_arg3))))) shapeCasts_S625000_S625000x1)) :=
    (last_sum (W5 m ρ c)).trans (by rw [d_dst, d_msg]; rfl)
  have e_nrm : W6 m ρ c (Proc.devRef .tc main_v35)
      = shapeCast S50000x1 (normOf (dstVec (m ((c : Thread nD τ).loc main_arg3)))) shapeCasts_S50000_S50000x1 :=
    (last_norm (W5 m ρ c)).trans (by rw [d_keep])
  -- the third region's exit
  exact (W7_arr m ρ c 2).trans ((NodeScale.array_eq (V6 m ρ) c).trans (congrArg₂ (rowScale (n := 50000) (m := 128)) e_sum e_nrm))

end Cert.KernelIdeal.HostChain

end
-- ==== Proof.Bridge.lean ====
/-
  The reference's result is the kernel program's result.

  The reference computes the layer as a plain product with the transposed weights plus the bias laid out over the
  rows, and each of the two scalings as a product with the normalisation laid out as a column and repeated along the
  128 features; everything else — the edge list's two rows, the wrapped source indices, the in-degree, the
  normalisation, the two gathers and the scatter-add — is operation for operation what the kernel program's host side
  does. So the reference's term is first restated over the kernel program's names for those shared operations
  (`refResult`: the same operations; the two programs' dimension records and shape facts are equal field by field),
  and then its three own spellings are turned into the kernel's by the laws of a linear layer on rows and of a
  row scaling (`refResult_eq`): no property of the numbers is used, only that both sides are the same function.
-/
import proofs.«168709_j72086731096478_1_alg».proof.Proof.RefRun
import proofs.«168709_j72086731096478_1_alg».proof.Proof.HostChain

set_option maxRecDepth 16384

noncomputable section

namespace Cert.Bridge

open Idealize.ShloMosaic Idealize.ShloMosaic.TcCoe Idealize.SL.Sem
open Cert.KernelIdeal.HostChain
open Cert.LibLinearRows Cert.LibRowScale

section Shape
variable {F : FTy → Type} [FloatOps F]

/-- The reference's result over the shared host operations: the layer as the host spells it, the two scalings as
    products with the normalisation laid out over the rows. -/
def refResult (x : (⟨Cert.ReferenceIdeal.S50000x256, .f32⟩ : BufTy).Contents (Elt F)) (w : (⟨Cert.ReferenceIdeal.S128x256, .f32⟩ : BufTy).Contents (Elt F))
    (b : (⟨Cert.ReferenceIdeal.S128, .f32⟩ : BufTy).Contents (Elt F)) (ei : (⟨Cert.ReferenceIdeal.S2x625000, .i32⟩ : BufTy).Contents (Elt F)) :
    (⟨Cert.ReferenceIdeal.S50000x128, .f32⟩ : BufTy).Contents (Elt F) :=
  mulf
    (aggregate (dstVec ei)
      (mulf
        (rowsAt (srcVec ei)
          (addf (Host.dotGeneral Cert.ReferenceIdeal.dot_S50000x256_S256x128_S50000x128_1_0_0_1_n_n none x
              (transpose Cert.ReferenceIdeal.S256x128 [1, 0] w Cert.ReferenceIdeal.Gen.transposes_S128x256_S256x128_1_0))
            (broadcastInDim Cert.ReferenceIdeal.S50000x128 ![0, 1] Cert.ReferenceIdeal.Gen.bcast_S1x128_S50000x128_0_1
              (broadcastInDim Cert.ReferenceIdeal.S1x128 ![1] Cert.ReferenceIdeal.Gen.bcast_S128_S1x128_1 b))))
        (broadcastInDim Cert.ReferenceIdeal.S625000x128 ![0, 1] Cert.ReferenceIdeal.Gen.bcast_S625000x1_S625000x128_0_1
          (broadcastInDim Cert.ReferenceIdeal.S625000x1 ![0] Cert.ReferenceIdeal.Gen.bcast_S625000_S625000x1_0 (entriesAt (srcVec ei) (normOf (dstVec ei)))))))
    (broadcastInDim Cert.ReferenceIdeal.S50000x128 ![0, 1] Cert.ReferenceIdeal.Gen.bcast_S50000x1_S50000x128_0_1
      (broadcastInDim Cert.ReferenceIdeal.S50000x1 ![0] Cert.ReferenceIdeal.Gen.bcast_S50000_S50000x1_0 (normOf (dstVec ei))))

/-- The reference run's term is `refResult` of the reference's arguments: the same operations, one by one. -/
theorem ref_term (m' : (ℓ : Loc Cert.ReferenceIdeal.nD Cert.ReferenceIdeal.τ Cert.ReferenceIdeal.sig) → Buf (Elt F) ℓ) (c : Dev Cert.ReferenceIdeal.nD) :
    Cert.ReferenceIdeal.ValueP.res_main_v42 m' c
      = refResult (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) := by
  unfold Cert.ReferenceIdeal.ValueP.res_main_v42
  rfl

end Shape

/-- At the exact instance the reference's three own spellings are the kernel's: the result is `result`. -/
theorem refResult_eq (x : (⟨Cert.ReferenceIdeal.S50000x256, .f32⟩ : BufTy).Contents (Elt Ideal)) (w : (⟨Cert.ReferenceIdeal.S128x256, .f32⟩ : BufTy).Contents (Elt Ideal))
    (b : (⟨Cert.ReferenceIdeal.S128, .f32⟩ : BufTy).Contents (Elt Ideal)) (ei : (⟨Cert.ReferenceIdeal.S2x625000, .i32⟩ : BufTy).Contents (Elt Ideal)) :
    refResult x w b ei = result x w b ei := by
  unfold refResult result
  rw [host_form (N := 50000) (K := 256) (M := 128) x w b Cert.ReferenceIdeal.Gen.transposes_S128x256_S256x128_1_0 Cert.ReferenceIdeal.Gen.bcast_S128_S1x128_1
    Cert.ReferenceIdeal.Gen.bcast_S1x128_S50000x128_0_1 Cert.ReferenceIdeal.dot_S50000x256_S256x128_S50000x128_1_0_0_1_n_n rfl]
  rw [mul_vec_laid_out (n := 625000) (m := 128) _ _ Cert.ReferenceIdeal.Gen.bcast_S625000_S625000x1_0 Cert.ReferenceIdeal.Gen.bcast_S625000x1_S625000x128_0_1
    Cert.KernelIdeal.Gen.shapeCasts_S625000_S625000x1]
  rw [mul_vec_laid_out (n := 50000) (m := 128) _ _ Cert.ReferenceIdeal.Gen.bcast_S50000_S50000x1_0 Cert.ReferenceIdeal.Gen.bcast_S50000x1_S50000x128_0_1
    Cert.KernelIdeal.Gen.shapeCasts_S50000_S50000x1]

end Cert.Bridge

end
-- ==== Proof.lean ====
/-
  A graph convolution with symmetric degree normalisation: the kernel program against its reference.

  Both programs compute, for node features `x`, weights `w`, bias `b` and an edge list `ei` (destinations in row 0,
  sources in row 1): the linear layer `h = x·wᵀ + b` on every node row; every node's in-degree and from it the
  normalisation `nd` (`1 / sqrt (max degree 1)` where the degree is positive, `0` elsewhere); for every edge the row
  of `h` at its source times `nd` at its source; the sum of those rows at every destination; and that sum times `nd` at
  the node. The kernel program runs the layer and the two scalings as three pipelined regions over blocks of 5000 rows
  and everything else on the host exactly as the reference does. At the exact instance a change of float format is the
  identity, a matrix unit's product into a zero accumulator is the sum over the contracted axis, and each region's
  blocks tile its output, so each region's output array is one function of its input arrays (the layer on rows, a
  scaling of rows by a column): the kernel's result is then the reference's term operation for operation. No law of
  the extended reals beyond the definitions is needed, and the precondition (finite inputs) is not used.
  The frames of the two kernel programs are the generated frame certificates; the reference's frame is its run with
  the result dropped; nothing was rewritten by the idealisation, so there is nothing to preserve.
-/
import proofs.«168709_j72086731096478_1_alg».proof.Defs
import proofs.«168709_j72086731096478_1_alg».proof.Proof.Gen.Kernel
import proofs.«168709_j72086731096478_1_alg».proof.Proof.Gen.Kernel.Frame
import proofs.«168709_j72086731096478_1_alg».proof.Proof.Gen.KernelIdeal
import proofs.«168709_j72086731096478_1_alg».proof.Proof.Gen.KernelIdeal.Frame
import proofs.«168709_j72086731096478_1_alg».proof.Proof.Gen.ReferenceIdeal
import proofs.«168709_j72086731096478_1_alg».proof.Proof.Gen.Pre_finite_inputs
import proofs.«168709_j72086731096478_1_alg».proof.Proof.KernelRun
import proofs.«168709_j72086731096478_1_alg».proof.Proof.RefRun
import proofs.«168709_j72086731096478_1_alg».proof.Proof.HostChain
import proofs.«168709_j72086731096478_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame certificate. -/
theorem frame_kernel : Cert.frame_Kernel := fun m ρ _ => Cert.Kernel.Gen.frame m ρ

/-- So does the idealised kernel program. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- From memories agreeing on the arguments both programs end with the same result: the kernel program's result
    array holds `HostChain.result` of its arguments, and the reference's term is that function of its own. -/
theorem algebraic : Cert.algebraic_KernelIdeal_ReferenceIdeal := by
  intro m ρ m' ρ' _ hagree
  refine ⟨fun c => Cert.KernelIdeal.HostChain.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.HostChain.result_eq m ρ c), (h c).2⟩)
      (Cert.KernelIdeal.GenP.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Bridge.ref_term, Cert.Bridge.refResult_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
